-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1000x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S65536 : Shape := ⟨1, ![65536]⟩
abbrev S1024 : Shape := ⟨1, ![1024]⟩
abbrev S2x65536 : Shape := ⟨2, ![2, 65536]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1024 : S_.BroadcastsInDim S1024 (![] : Fin 0 → Fin S1024.rank)
  reducesTo_S1024_S_d0 : S1024.ReducesTo [0] S_
  bcast_S_S2x65536 : S_.BroadcastsInDim S2x65536 (![] : Fin 0 → Fin S2x65536.rank)
  reducesTo_S2x65536_S_d0_1 : S2x65536.ReducesTo [0, 1] S_

variable [Facts]

def fn_part1 {F : FTy → Type} [FloatOps F] (main_arg3 : IVec S2x65536 32) (main_v13 : IVec S_ 1) (main_v15 : IVec S2x65536 1) (main_c_5 : IVec S_ 1) : IVec S_ 1 :=
  let main_v16 : IVec S_ 1 := (fun x v => Host.reduce IntOp.andi x v reducesTo_S2x65536_S_d0_1 h_S_) main_v15 main_c_5
  let main_v17 : IVec S_ 1 := andi main_v13 main_v16
  let main_c_6 : IVec S_ 32 := constantI S_ 32 1024#32
  let main_v18 : IVec S2x65536 32 := broadcastInDim S2x65536 ![] bcast_S_S2x65536 main_c_6
  let main_v19 : IVec S2x65536 1 := cmpi .slt main_arg3 main_v18
  let main_c_7 : IVec S_ 1 := constantI S_ 1 1#1
  let main_v20 : IVec S_ 1 := (fun x v => Host.reduce IntOp.andi x v reducesTo_S2x65536_S_d0_1 h_S_) main_v19 main_c_7
  let main_v21 : IVec S_ 1 := andi main_v17 main_v20
  main_v21

def fn {F : FTy → Type} [FloatOps F] (main_arg0 : FVec F S50000x1024 .f32) (main_arg1 : FVec F S65536 .f32) (main_arg2 : FVec F S1024 .f32) (main_arg3 : IVec S2x65536 32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S2x65536 32 := broadcastInDim S2x65536 ![] bcast_S_S2x65536 main_c_4
  let main_v15 : IVec S2x65536 1 := cmpi .sge main_arg3 main_v14
  let main_c_5 : IVec S_ 1 := constantI S_ 1 1#1
  fn_part1 (F := F) main_arg3 main_v13 main_v15 main_c_5
-- ==== Kernel.lean ====
abbrev S50000x1024 : Shape := ⟨2, ![50000, 1024]⟩
abbrev S65536 : Shape := ⟨1, ![65536]⟩
abbrev S1024 : Shape := ⟨1, ![1024]⟩
abbrev S2x65536 : Shape := ⟨2, ![2, 65536]⟩
abbrev S1x65536 : Shape := ⟨2, ![1, 65536]⟩
abbrev S_ : Shape := ⟨0, ![]⟩
abbrev S1048576 : Shape := ⟨1, ![1048576]⟩
abbrev S65536x1 : Shape := ⟨2, ![65536, 1]⟩
abbrev S1024x1024 : Shape := ⟨2, ![1024, 1024]⟩
abbrev S1000x1024 : Shape := ⟨2, ![1000, 1024]⟩
abbrev S1x1024 : Shape := ⟨2, ![1, 1024]⟩

abbrev nBuf : Space → Nat
  | .hbm => 29
  | .vmem => 7
  | .smem => 0
  | _ => 0

abbrev bufTy : (tb : Table) → Fin (tcTables nBuf tb) → BufTy
  | .hbm, ⟨0, _⟩ => ⟨S50000x1024, .f32⟩
  | .hbm, ⟨1, _⟩ => ⟨S65536, .f32⟩
  | .hbm, ⟨2, _⟩ => ⟨S1024, .f32⟩
  | .hbm, ⟨3, _⟩ => ⟨S2x65536, .i32⟩
  | .hbm, ⟨4, _⟩ => ⟨S1x65536, .i32⟩
  | .hbm, ⟨5, _⟩ => ⟨S65536, .i32⟩
  | .hbm, ⟨6, _⟩ => ⟨S1x65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S_, .f32⟩
  | .hbm, ⟨13, _⟩ => ⟨S1048576, .f32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S1048576, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S50000x1024, .f32⟩
  | .local _ .vmem, ⟨0, _⟩ => ⟨S1000x1024, .f32⟩
  | .local _ .vmem, ⟨1, _⟩ => ⟨S1000x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1000x1024, .f32⟩
  | .local _ .vmem, ⟨6, _⟩ => ⟨S1000x1024, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S1048576 : S_.BroadcastsInDim S1048576 (![] : Fin 0 → Fin S1048576.rank)
  bcast_S65536_S65536x1_0 : S65536.BroadcastsInDim S65536x1 (![0] : Fin 1 → Fin S65536x1.rank)
  shapeCasts_S1048576_S1024x1024 : S1048576.ShapeCasts S1024x1024
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  scatter_S1048576_S65536x1_S65536_n_0_0_1_wf : ScatterDims.WF S1048576 S65536x1 S65536 [] [0] [0] 1
  dot_S1000x1024_S1024x1024_S1000x1024_1_0_0_1_n_n_wf : DotDims.WF S1000x1024 S1024x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1024.size a ≤ S50000x1024.size a
  hwx0_4 : ∀ i : grid0.Coords, EltTy.bits .f32 = 32 ∨ (Rect.block (s := S50000x1024) S1000x1024.size (cc0_transform_4 i) (hinb0_4 i)).WholeWords (EltTy.packing .f32)

variable [Facts₀]

def scatter_S1048576_S65536x1_S65536_n_0_0_1 : ScatterDims S1048576 S65536x1 S65536 where
  updateWindowDims := []
  insertedWindowDims := [0]
  scatterDimsToOperandDims := [0]
  indexVectorDim := 1
  wf := scatter_S1048576_S65536x1_S65536_n_0_0_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1000x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S65536 : Shape := ⟨1, ![65536]⟩
abbrev S1024 : Shape := ⟨1, ![1024]⟩
abbrev S2x65536 : Shape := ⟨2, ![2, 65536]⟩
abbrev S1x65536 : Shape := ⟨2, ![1, 65536]⟩
abbrev S_ : Shape := ⟨0, ![]⟩
abbrev S1024x1024 : Shape := ⟨2, ![1024, 1024]⟩
abbrev S65536x1 : Shape := ⟨2, ![65536, 1]⟩
abbrev S65536x2 : Shape := ⟨2, ![65536, 2]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S65536, .f32⟩
  | .hbm, ⟨2, _⟩ => ⟨S1024, .f32⟩
  | .hbm, ⟨3, _⟩ => ⟨S2x65536, .i32⟩
  | .hbm, ⟨4, _⟩ => ⟨S1x65536, .i32⟩
  | .hbm, ⟨5, _⟩ => ⟨S65536, .i32⟩
  | .hbm, ⟨6, _⟩ => ⟨S1x65536, .i32⟩
  | .hbm, ⟨7, _⟩ => ⟨S65536, .i32⟩
  | .hbm, ⟨8, _⟩ => ⟨S_, .f32⟩
  | .hbm, ⟨9, _⟩ => ⟨S1024x1024, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x1, .i32⟩
  | .hbm, ⟨26, _⟩ => ⟨S65536x2, .i32⟩
  | .hbm, ⟨27, _⟩ => ⟨S1024x1024, .f32⟩
  | .hbm, ⟨28, _⟩ => ⟨S1024x1024, .f32⟩
  | .hbm, ⟨29, _⟩ => ⟨S50000x1024, .f32⟩
  | .hbm, ⟨30, _⟩ => ⟨S1x1024, .f32⟩
  | .hbm, ⟨31, _⟩ => ⟨S50000x1024, .f32⟩
  | .hbm, ⟨32, _⟩ => ⟨S50000x1024, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S1024x1024 : S_.BroadcastsInDim S1024x1024 (![] : Fin 0 → Fin S1024x1024.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  scatter_S1024x1024_S65536x2_S65536_n_01_01_1_wf : ScatterDims.WF S1024x1024 S65536x2 S65536 [] [0, 1] [0, 1] 1
  dot_S50000x1024_S1024x1024_S50000x1024_1_0_0_1_n_n_wf : DotDims.WF S50000x1024 S1024x1024 S50000x1024 [1] [0] [0] [1] [] []

variable [Facts₀]

def scatter_S1024x1024_S65536x2_S65536_n_01_01_1 : ScatterDims S1024x1024 S65536x2 S65536 where
  updateWindowDims := []
  insertedWindowDims := [0, 1]
  scatterDimsToOperandDims := [0, 1]
  indexVectorDim := 1
  wf := scatter_S1024x1024_S65536x2_S65536_n_01_01_1_wf
def dot_S50000x1024_S1024x1024_S50000x1024_1_0_0_1_n_n : DotDims S50000x1024 S1024x1024 S50000x1024 where
  lhsContracting := [1]
  rhsContracting := [0]
  lhsNonContracting := [0]
  rhsNonContracting := [1]
  lhsBatch := []
  rhsBatch := []
  wf := dot_S50000x1024_S1024x1024_S50000x1024_1_0_0_1_n_n_wf

class Facts : Prop extends Facts₀ where

variable [Facts]
-- ==== Proof.ScatterAt.lean ====
import Idealize.ShloMosaic.PureOps.Ideal
import Idealize.ShloMosaic.PureOps.Ideal.Laws
import Idealize.ShloMosaic.Lib.ValueIdx

/-!
# An accumulating scatter read at one element

At the ideal float instance an accumulating scatter's result at an element is the operand there plus the sum of
the updates whose result index is that element. For the two scatters met here — a list of `65536` scalar
updates added into a flat array of `1024 · 1024` elements at ONE index word each, and the same list added into
a `1024 × 1024` matrix at a PAIR of index words each — the result index of update `j` is the signed value of
its index word(s), so the set of updates landing on an element is described by equations on those words.
-/

open Idealize.ShloMosaic Idealize.ShloMosaic.ValueIdx

namespace Cert.Scatter

abbrev Flat : Shape := ⟨1, ![1048576]⟩
abbrev Mat : Shape := ⟨2, ![1024, 1024]⟩
abbrev Upd : Shape := ⟨1, ![65536]⟩
abbrev Idx1 : Shape := ⟨2, ![65536, 1]⟩
abbrev Idx2 : Shape := ⟨2, ![65536, 2]⟩

/-- An update lands on element `i` exactly when, on every axis, its start plus its window coordinate is `i`'s
    coordinate (being a coordinate of the operand, the sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e1 := congrFun (Option.some.inj e) a
      have h2 := h a
      have e2 : (d.start j idx a + (d.window j a : Int)).toNat = (i a).val := congrArg Fin.val e1
      omega
    · intro e
      congr 1
      funext a
      apply Fin.ext
      show (d.start j idx a + (d.window j a : Int)).toNat = (i a).val
      rw [e a]; simp
  · rename_i h
    constructor
    · intro e; cases e
    · intro e
      exfalso; apply h
      intro a
      rw [e a]
      have := (i a).isLt
      omega

/-! ## The flat scatter: one index word per update -/

section flat
variable (hwf : ScatterDims.WF Flat Idx1 Upd [] [0] [0] 1)

/-- Update `j` reads its one index word at row `j` of the index column. -/
theorem siIdx_flat (j : Upd.Idx) :
    (ScatterDims.mk [] [0] [0] 1 hwf : ScatterDims Flat Idx1 Upd).siIdx j ⟨0, Nat.one_pos⟩ = ix2 (j 0) 0 := by
  funext b
  match b with
  | ⟨0, _⟩ =>
    unfold ScatterDims.siIdx
    rw [dif_neg (show ¬ ((0 : Nat) = 1) by omega)]
    rfl
  | ⟨1, _⟩ =>
    unfold ScatterDims.siIdx
    rw [dif_pos (show (1 : Nat) = 1 from rfl)]
    rfl

theorem start_flat {w : Nat} (j : Upd.Idx) (idx : IVec Idx1 w) (a : Fin 1) :
    (ScatterDims.mk [] [0] [0] 1 hwf : ScatterDims Flat Idx1 Upd).start j idx a = (idx (ix2 (j 0) 0)).toInt := by
  obtain rfl : a = 0 := Subsingleton.elim _ _
  unfold ScatterDims.start
  split
  · exact congrArg (fun k => (idx k).toInt) (siIdx_flat hwf j)
  · rename_i ha
    exact absurd (List.mem_singleton.2 rfl) ha

theorem window_flat (j : Upd.Idx) (a : Fin 1) :
    (ScatterDims.mk [] [0] [0] 1 hwf : ScatterDims Flat Idx1 Upd).window j a = 0 := by
  obtain rfl : a = 0 := Subsingleton.elim _ _
  unfold ScatterDims.window
  split
  · rename_i ha
    exact absurd ha (by simp [ScatterDims.sKept, Shape.kept])
  · rfl

/-- The flat accumulating scatter at element `i`: the operand there plus the updates whose index word is `i`. -/
theorem hostScatterAdd_flat_apply (x : Flat.Idx → EReal) (idx : IVec Idx1 32) (upd : Upd.Idx → EReal) (i : Flat.Idx) :
    Ideal.hostScatterAdd (ScatterDims.mk [] [0] [0] 1 hwf : ScatterDims Flat Idx1 Upd) x idx upd i
      = x i + ∑ j ∈ Finset.univ.filter (fun j : Upd.Idx => (idx (ix2 (j 0) 0)).toInt = ((i 0).val : Int)), upd j := by
  unfold Ideal.hostScatterAdd
  refine congrArg (fun z => x i + z) (Finset.sum_congr ?_ (fun _ _ => rfl))
  ext j
  simp only [Finset.mem_filter, Finset.mem_univ, true_and]
  rw [resultIdx?_eq_some_iff]
  constructor
  · intro h
    have h0 := h 0
    rw [start_flat, window_flat] at h0
    simpa using h0
  · intro h a
    obtain rfl : a = 0 := Subsingleton.elim _ _
    rw [start_flat, window_flat]
    simpa using h

end flat

/-! ## The matrix scatter: a pair of index words per update -/

section pair
variable (hwf : ScatterDims.WF Mat Idx2 Upd [] [0, 1] [0, 1] 1)

/-- Update `j` reads component `c` of its index pair at row `j`, column `c` of the index array. -/
theorem siIdx_pair (j : Upd.Idx) (c : Fin 2) :
    (ScatterDims.mk [] [0, 1] [0, 1] 1 hwf : ScatterDims Mat Idx2 Upd).siIdx j ⟨c.val, c.isLt⟩ = ix2 (j 0) c := by
  funext b
  match b with
  | ⟨0, _⟩ =>
    unfold ScatterDims.siIdx
    rw [dif_neg (show ¬ ((0 : Nat) = 1) by omega)]
    rfl
  | ⟨1, _⟩ =>
    unfold ScatterDims.siIdx
    rw [dif_pos (show (1 : Nat) = 1 from rfl)]
    rfl

theorem start_pair0 {w : Nat} (j : Upd.Idx) (idx : IVec Idx2 w) :
    (ScatterDims.mk [] [0, 1] [0, 1] 1 hwf : ScatterDims Mat Idx2 Upd).start j idx 0 = (idx (ix2 (j 0) 0)).toInt := by
  unfold ScatterDims.start
  split
  · exact congrArg (fun k => (idx k).toInt) (siIdx_pair hwf j 0)
  · rename_i ha
    exact absurd (by simp) ha

theorem start_pair1 {w : Nat} (j : Upd.Idx) (idx : IVec Idx2 w) :
    (ScatterDims.mk [] [0, 1] [0, 1] 1 hwf : ScatterDims Mat Idx2 Upd).start j idx 1 = (idx (ix2 (j 0) 1)).toInt := by
  unfold ScatterDims.start
  split
  · exact congrArg (fun k => (idx k).toInt) (siIdx_pair hwf j 1)
  · rename_i ha
    exact absurd (by simp) ha

theorem window_pair (j : Upd.Idx) (a : Fin 2) :
    (ScatterDims.mk [] [0, 1] [0, 1] 1 hwf : ScatterDims Mat Idx2 Upd).window j a = 0 := by
  unfold ScatterDims.window
  split
  · rename_i ha
    refine absurd ha ?_
    fin_cases a <;> simp [ScatterDims.sKept, Shape.kept]
  · rfl

/-- The matrix accumulating scatter at element `i`: the operand there plus the updates whose index pair is `i`. -/
theorem hostScatterAdd_pair_apply (x : Mat.Idx → EReal) (idx : IVec Idx2 32) (upd : Upd.Idx → EReal) (i : Mat.Idx) :
    Ideal.hostScatterAdd (ScatterDims.mk [] [0, 1] [0, 1] 1 hwf : ScatterDims Mat Idx2 Upd) x idx upd i
      = x i + ∑ j ∈ Finset.univ.filter (fun j : Upd.Idx =>
          (idx (ix2 (j 0) 0)).toInt = ((i 0).val : Int) ∧ (idx (ix2 (j 0) 1)).toInt = ((i 1).val : Int)), upd j := by
  unfold Ideal.hostScatterAdd
  refine congrArg (fun z => x i + z) (Finset.sum_congr ?_ (fun _ _ => rfl))
  ext j
  simp only [Finset.mem_filter, Finset.mem_univ, true_and]
  rw [resultIdx?_eq_some_iff]
  constructor
  · intro h
    have h0 := h 0
    have h1 := h 1
    rw [start_pair0, window_pair] at h0
    rw [start_pair1, window_pair] at h1
    exact ⟨by simpa using h0, by simpa using h1⟩
  · intro h a
    have e0 := start_pair0 hwf j idx
    have e1 := start_pair1 hwf j idx
    rw [window_pair]
    fin_cases a
    · exact (congrArg (· + ((0 : Nat) : Int)) e0).trans (by simpa using h.1)
    · exact (congrArg (· + ((0 : Nat) : Int)) e1).trans (by simpa using h.2)

end pair

end Cert.Scatter
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.Spec.lean ====
import Idealize.ShloMosaic.PureOps.Ideal
import Idealize.ShloMosaic.PureOps.Ideal.Laws
import Idealize.ShloMosaic.Lib.ValueIdx
import Idealize.ShloMosaic.Lib.StableHlo.Predicate
import proofs.«428292_j70179765616942_3_alg».proof.Proof.ScatterAt
import proofs.«428292_j70179765616942_3_alg».proof.Proof.LibIdealReal

/-!
# The layer as one function of its arguments

`y = x · Wᵀ + bias`, where the `1024 × 1024` weight `W` is given sparsely: entry `j` of a list of `65536`
triples adds `w j` to `W[row j, col j]`, duplicates accumulating. We name the TRANSPOSED dense weight
`wt[c, r] = ∑ {j | col j = c ∧ row j = r} w j` and the result `G[n, o] = ∑ₖ x[n, k] · wt[k, o] + bias[o]`.

Two ways of building `wt` from the triples are shown to give it, when every row and column number lies in
`[0, 1024)`: scattering into the `1024 × 1024` matrix at the pair `(row, col)` and transposing; and scattering
into a flat array of `1024 · 1024` elements at the single position `col · 1024 + row` and reading the flat array
as a matrix, row-major. The first needs the pair of words read as signed integers to be `(r, c)`; the second
needs `col · 1024 + row = c · 1024 + r`, which for numbers below `1024` is the same condition (division with
remainder by `1024`). In 32-bit arithmetic `col · 1024 + row < 2²⁰` does not wrap, and neither of the two
"negative index" corrections (adding the extent when the word is negative) applies.
-/

open Idealize.ShloMosaic Idealize.ShloMosaic.ValueIdx Idealize.ShloMosaic.StableHlo
open Cert.Scatter (Flat Mat Upd Idx1 Idx2)
open Cert.Lib (IsReal)

namespace Cert.Expander

abbrev Rows : Shape := ⟨2, ![50000, 1024]⟩
abbrev Edges : Shape := ⟨2, ![2, 65536]⟩
abbrev Bias : Shape := ⟨1, ![1024]⟩

/-! ## Words -/

/-- A 32-bit word that is `≥ 0` and `< 1024` as a signed integer has unsigned value below `1024`. -/
theorem toNat_lt_of_cmp (a : BitVec 32) (h0 : IntOp.cmpi .sge a 0#32 = 1#1) (h1 : IntOp.cmpi .slt a 1024#32 = 1#1) :
    a.toNat < 1024 := by
  simp only [IntOp.cmpi, Predicate.ofBool_eq_one_iff, BitVec.sle, BitVec.slt, decide_eq_true_eq] at h0 h1
  have e := BitVec.toInt_eq_toNat_cond a
  have hlt := a.isLt
  have z0 : (0#32 : BitVec 32).toInt = 0 := by decide
  have z1 : (1024#32 : BitVec 32).toInt = 1024 := by decide
  rw [z0] at h0; rw [z1] at h1
  omega

/-- A small non-negative word is not negative, so "add the extent if negative" leaves it alone. -/
theorem wrap_id (v m : BitVec 32) (h : v.toNat < 2 ^ 31) :
    Scalar.select (IntOp.cmpi .slt v 0#32) (IntOp.addi v m) v = v := by
  have hc : ¬ IntOp.cmpi .slt v 0#32 = 1#1 := by
    rw [Predicate.slt_iff_toNat h (by decide)]; simp
  rw [eq_zero_of_ne_one hc, select_zero]

/-- `col · 1024 + row` on 32-bit words, for `col, row < 1024`: no wrap-around. -/
theorem flat_toNat (c r : BitVec 32) (hc : c.toNat < 1024) (hr : r.toNat < 1024) :
    (IntOp.addi (IntOp.muli c 1024#32) r).toNat = c.toNat * 1024 + r.toNat := by
  have e : (1024#32 : BitVec 32).toNat = 1024 := by decide
  simp only [IntOp.addi, IntOp.muli, BitVec.toNat_add, BitVec.toNat_mul, e]
  omega

/-! ## The specification -/

/-- Every row and column number is in `[0, 1024)`. -/
def InRange (e : IVec Edges 32) : Prop := ∀ p, (e p).toNat < 1024

/-- The dense weight, transposed: `wt[c, r]` sums the values of the triples with column `c` and row `r`. -/
noncomputable def wt (w : Upd.Idx → EReal) (e : IVec Edges 32) : Mat.Idx → EReal := fun i =>
  ∑ j ∈ Finset.univ.filter (fun j : Upd.Idx =>
    (e (ix2 1 (j 0))).toNat = (i 0).val ∧ (e (ix2 0 (j 0))).toNat = (i 1).val), w j

/-- The layer's result: `G[n, o] = ∑ₖ x[n, k] · wt[k, o] + bias[o]`. -/
noncomputable def G (x : Rows.Idx → EReal) (w : Upd.Idx → EReal) (b : Bias.Idx → EReal) (e : IVec Edges 32) :
    Rows.Idx → EReal := fun i =>
  (∑ k : Fin 1024, x (ix2 (i 0) k) * wt w e (ix2 k (i 1))) + b (ix1 (i 1))

/-- The dense weight of real values is real. -/
theorem wt_isReal (w : Upd.Idx → EReal) (e : IVec Edges 32) (hw : ∀ j, IsReal (w j)) (i : Mat.Idx) :
    IsReal (wt w e i) :=
  IsReal.sum _ _ fun j _ => hw j

/-! ## Two constructions of the dense weight -/

/-- Scattering into the matrix at `(row, col)` from zero, read at `(r, c)`, is `wt[c, r]`. -/
theorem wt_of_pair (hwf : ScatterDims.WF Mat Idx2 Upd [] [0, 1] [0, 1] 1) (w : Upd.Idx → EReal) (e : IVec Edges 32)
    (he : InRange e) (idx : IVec Idx2 32) (x0 : Mat.Idx → EReal) (hx0 : ∀ i, x0 i = 0)
    (h0 : ∀ j : Fin 65536, idx (ix2 j 0) = e (ix2 0 j)) (h1 : ∀ j : Fin 65536, idx (ix2 j 1) = e (ix2 1 j))
    (i : Mat.Idx) :
    Ideal.hostScatterAdd (ScatterDims.mk [] [0, 1] [0, 1] 1 hwf : ScatterDims Mat Idx2 Upd) x0 idx w (ix2 (i 1) (i 0))
      = wt w e i := by
  rw [Cert.Scatter.hostScatterAdd_pair_apply, hx0, zero_add]
  unfold wt
  refine Finset.sum_congr ?_ (fun _ _ => rfl)
  ext j
  simp only [Finset.mem_filter, Finset.mem_univ, true_and]
  have e0 := h0 (j 0)
  have e1 := h1 (j 0)
  rw [e0, e1]
  have a0 := he (ix2 0 (j 0))
  have a1 := he (ix2 1 (j 0))
  rw [Predicate.toInt_eq_toNat_of_lt (by omega), Predicate.toInt_eq_toNat_of_lt (by omega)]
  show ((e (ix2 0 (j 0))).toNat : Int) = ((i 1).val : Int) ∧ ((e (ix2 1 (j 0))).toNat : Int) = ((i 0).val : Int) ↔ _
  constructor
  · rintro ⟨p, q⟩; exact ⟨by exact_mod_cast q, by exact_mod_cast p⟩
  · rintro ⟨p, q⟩; exact ⟨by exact_mod_cast q, by exact_mod_cast p⟩

/-- Scattering into the flat array at `col · 1024 + row` from zero, read at `c · 1024 + r`, is `wt[c, r]`. -/
theorem wt_of_flat (hwf : ScatterDims.WF Flat Idx1 Upd [] [0] [0] 1) (w : Upd.Idx → EReal) (e : IVec Edges 32)
    (he : InRange e) (idx : IVec Idx1 32) (x0 : Flat.Idx → EReal) (hx0 : ∀ i, x0 i = 0)
    (h0 : ∀ j : Fin 65536, idx (ix2 j 0) = IntOp.addi (IntOp.muli (e (ix2 1 j)) 1024#32) (e (ix2 0 j)))
    (i : Mat.Idx) (k : Flat.Idx) (hk : (k 0).val = (i 0).val * 1024 + (i 1).val) :
    Ideal.hostScatterAdd (ScatterDims.mk [] [0] [0] 1 hwf : ScatterDims Flat Idx1 Upd) x0 idx w k = wt w e i := by
  rw [Cert.Scatter.hostScatterAdd_flat_apply, hx0, zero_add]
  unfold wt
  refine Finset.sum_congr ?_ (fun _ _ => rfl)
  ext j
  simp only [Finset.mem_filter, Finset.mem_univ, true_and]
  have e0 := h0 (j 0)
  rw [e0]
  have a0 := he (ix2 0 (j 0))
  have a1 := he (ix2 1 (j 0))
  have ef := flat_toNat _ _ a1 a0
  rw [Predicate.toInt_eq_toNat_of_lt (by omega), ef, hk]
  have b0 : (i 0).val < 1024 := (i 0).isLt
  have b1 : (i 1).val < 1024 := (i 1).isLt
  constructor
  · intro p
    have p' : (e (ix2 1 (j 0))).toNat * 1024 + (e (ix2 0 (j 0))).toNat = (i 0).val * 1024 + (i 1).val := by
      exact_mod_cast p
    constructor <;> omega
  · rintro ⟨p, q⟩
    rw [p, q]

end Cert.Expander
-- ==== Proof.HostIdx.lean ====
import Idealize.ShloMosaic.Lib.Pipeline.Value
import Idealize.ShloMosaic.Lib.ValueIdx
import Idealize.ShloMosaic.Lib.StableHlo.Predicate
import proofs.«428292_j70179765616942_3_alg».proof.Proof.Spec

/-!
# The index plumbing read at one element

The row and column numbers arrive as one `2 × 65536` array (row numbers in its row `0`, column numbers in its
row `1`). Both programs cut out the two rows, compute on them elementwise and hand the result to a scatter as a
`65536 × 1` column (one index word per update) or as a `65536 × 2` array (a pair per update). Each step reads
ONE element of its operand; these are the element-level readings.
-/

open Idealize.ShloMosaic Idealize.ShloMosaic.ValueIdx Idealize.ShloMosaic.StableHlo
open Cert.Scatter (Flat Mat Upd Idx1 Idx2)

namespace Cert.Expander

abbrev Row1 : Shape := ⟨2, ![1, 65536]⟩
abbrev Sc : Shape := ⟨0, ![]⟩

/-- Row `0` of the edge array, as a vector: element `j` is `e[0, j]`. -/
theorem row0_apply {α : Type} (hs : Edges.Slices ![0, 0] Row1) (hc : Row1.ShapeCasts Upd) (e : Edges.Idx → α)
    (j : Fin 65536) :
    shapeCast Upd (extractStridedSlice Row1 ![0, 0] e hs) hc (ix1 j) = e (ix2 0 j) := by
  rw [shapeCast_apply _ hc (ix1 j) (ix2 0 j)
    (by rw [Shape.rowMajor_val_two, Shape.rowMajor_val_one]; show 0 * 65536 + j.val = j.val; omega)]
  exact extractStridedSlice_apply ![0, 0] e hs (ix2 0 j) (ix2 0 j) (fun a => match a with
    | ⟨0, _⟩ => by show (0 : Nat) = 0 + 0; rfl
    | ⟨1, _⟩ => by show j.val = 0 + j.val; omega)

/-- Row `1` of the edge array, as a vector: element `j` is `e[1, j]`. -/
theorem row1_apply {α : Type} (hs : Edges.Slices ![1, 0] Row1) (hc : Row1.ShapeCasts Upd) (e : Edges.Idx → α)
    (j : Fin 65536) :
    shapeCast Upd (extractStridedSlice Row1 ![1, 0] e hs) hc (ix1 j) = e (ix2 1 j) := by
  rw [shapeCast_apply _ hc (ix1 j) (ix2 0 j)
    (by rw [Shape.rowMajor_val_two, Shape.rowMajor_val_one]; show 0 * 65536 + j.val = j.val; omega)]
  exact extractStridedSlice_apply ![1, 0] e hs (ix2 0 j) (ix2 1 j) (fun a => match a with
    | ⟨0, _⟩ => by show (1 : Nat) = 1 + 0; rfl
    | ⟨1, _⟩ => by show j.val = 0 + j.val; omega)

/-- A scalar spread over any shape reads the scalar everywhere. -/
theorem splat_apply {α : Type} {t : Shape} (hb : Sc.BroadcastsInDim t ![]) (v : Sc.Idx → α) (j : t.Idx) :
    broadcastInDim t ![] hb v j = v ix0 :=
  (Predicate.bcast_scalar hb (by decide) v j).trans (congrArg v (funext fun a => a.elim0))

/-- The zero scalar spread over any shape is zero everywhere, as an extended real. -/
theorem splat_zero_apply {t : Shape} (hb : Sc.BroadcastsInDim t ![]) (j : t.Idx) :
    broadcastInDim t ![] hb (constant (F := Ideal) Sc .f32 0x00000000#32) j = (0 : EReal) := by
  rw [splat_apply]
  exact Ideal.ofBits_zero_f32

/-- A vector laid out as a one-column array: entry `(j, 0)` is element `j`. -/
theorem col_apply {α : Type} (hb : Upd.BroadcastsInDim Idx1 ![0]) (y : Upd.Idx → α) (j : Fin 65536) :
    broadcastInDim Idx1 ![0] hb y (ix2 j 0) = y (ix1 j) :=
  broadcastInDim_apply _ hb y (ix2 j 0) (ix1 j) (fun a => match a with
    | ⟨0, _⟩ => by show j.val = if (65536 : Nat) = 1 then 0 else j.val; rw [if_neg (by decide)])

/-- Two columns side by side: column `0` is the first. -/
theorem pair_left {α : Type} (hcat : Shape.Concatenates [Idx1, Idx1] Idx2 1) (a b : Idx1.Idx → α) (j : Fin 65536) :
    concatenate Idx2 1 [⟨Idx1, a⟩, ⟨Idx1, b⟩] hcat (ix2 j 0) = a (ix2 j 0) :=
  concatenate_pair_apply_left 1 a b hcat (ix2 j 0) rfl (ix2 j 0) (fun c => match c with
    | ⟨0, _⟩ => rfl
    | ⟨1, _⟩ => rfl)

/-- Two columns side by side: column `1` is the second. -/
theorem pair_right {α : Type} (hcat : Shape.Concatenates [Idx1, Idx1] Idx2 1) (a b : Idx1.Idx → α) (j : Fin 65536) :
    concatenate Idx2 1 [⟨Idx1, a⟩, ⟨Idx1, b⟩] hcat (ix2 j 1) = b (ix2 j 0) :=
  concatenate_pair_apply_right 1 a b hcat (ix2 j 1) rfl rfl (ix2 j 0) (fun c => match c with
    | ⟨0, _⟩ => fun _ => rfl
    | ⟨1, _⟩ => fun h => absurd rfl h) rfl

/-- A flat array of `1024 · 1024` elements read as a matrix, row-major: entry `(c, r)` is element `c · 1024 + r`. -/
theorem asMatrix_apply {α : Type} (hc : Flat.ShapeCasts Mat) (y : Flat.Idx → α) (i : Mat.Idx) (k : Flat.Idx)
    (hk : (k 0).val = (i 0).val * 1024 + (i 1).val) :
    shapeCast Mat y hc i = y k :=
  shapeCast_apply y hc i k (by rw [Shape.rowMajor_val_two, Shape.rowMajor_val_one]; exact hk)

end Cert.Expander
-- ==== Proof.KernelWeights.lean ====
import proofs.«428292_j70179765616942_3_alg».proof.Proof.Gen.KernelIdeal.Frame
import proofs.«428292_j70179765616942_3_alg».proof.Proof.HostIdx
import Idealize.ShloMosaic.Lib.StableHlo.Run

/-!
# The weight arrays the kernel is launched with

Before its one launch the kernel's host code turns each triple's (row, col) into the flat position
`col · 1024 + row`, scatters the values into a flat zero array at those positions, reads the flat array as the
`1024 × 1024` matrix `Wᵀ`, and splits it into a reduced-precision "high" part and the remainder "low" part.
On the extended reals a change of precision is the identity, so the high part IS `Wᵀ` and the low part is
`Wᵀ − Wᵀ`, which vanishes because every entry of `Wᵀ` — a finite sum of real values — is real.
-/

noncomputable section

namespace Cert.KernelIdeal.Weights

open Cert.KernelIdeal Cert.KernelIdeal.Gen
open Idealize.ShloMosaic Idealize.ShloMosaic.TcCoe Idealize.SL.Sem Idealize.ShloMosaic.StableHlo
open Idealize.ShloMosaic.ValueIdx
open Cert.Expander Cert.Lib

variable {F : FTy → Type} [FloatOps F]

/-- The row numbers, as a vector. -/
def rowNo (e : IVec S2x65536 32) : IVec S65536 32 :=
  shapeCast _ (extractStridedSlice S1x65536 ![0, 0] e slices_S2x65536_S1x65536_0_0) shapeCasts_S1x65536_S65536
/-- The column numbers, as a vector. -/
def colNo (e : IVec S2x65536 32) : IVec S65536 32 :=
  shapeCast _ (extractStridedSlice S1x65536 ![1, 0] e slices_S2x65536_S1x65536_1_0) shapeCasts_S1x65536_S65536
/-- The flat positions `col · 1024 + row`. -/
def flatNo (e : IVec S2x65536 32) : IVec S65536 32 :=
  addi (muli (colNo e) (broadcastInDim S65536 ![] bcast_S_S65536 (constantI S_ 32 1024#32))) (rowNo e)
/-- The flat positions after the "negative means from the end" correction. -/
def flatWrapped (e : IVec S2x65536 32) : IVec S65536 32 :=
  select (cmpi .slt (flatNo e) (broadcastInDim S65536 ![] bcast_S_S65536 (constantI S_ 32 0#32)))
    (addi (flatNo e) (broadcastInDim S65536 ![] bcast_S_S65536 (constantI S_ 32 1048576#32))) (flatNo e)
/-- The flat array after the scatter. -/
def wFlat (w : FVec F S65536 .f32) (e : IVec S2x65536 32) : FVec F S1048576 .f32 :=
  Host.scatterAdd scatter_S1048576_S65536x1_S65536_n_0_0_1
    (broadcastInDim S1048576 ![] bcast_S_S1048576 (constant S_ .f32 0x00000000#32))
    (broadcastInDim S65536x1 ![0] bcast_S65536_S65536x1_0 (flatWrapped e)) w
/-- The flat array as a matrix. -/
def wMat (w : FVec F S65536 .f32) (e : IVec S2x65536 32) : FVec F S1024x1024 .f32 :=
  shapeCast _ (wFlat w e) shapeCasts_S1048576_S1024x1024
/-- Its high part. -/
def wHi (w : FVec F S65536 .f32) (e : IVec S2x65536 32) : FVec F S1024x1024 .bf16 :=
  truncf .bf16 (wMat w e) bitsLt_bf16_f32
/-- Its low part. -/
def wLo (w : FVec F S65536 .f32) (e : IVec S2x65536 32) : FVec F S1024x1024 .bf16 :=
  truncf .bf16 (subf (wMat w e) (extf .f32 (wHi w e) bitsLt_bf16_f32)) bitsLt_bf16_f32

variable (m : (ℓ : Loc nD τ sig) → Buf (Elt F) ℓ)

set_option maxHeartbeats 4000000 in
/-- The launch finds the high part in the second window's array. -/
theorem V_hi (c : Dev nD) :
    (V m c main_v16 : FVec F S1024x1024 .bf16)
      = wHi (m ((c : Thread nD τ).loc main_arg1)) (m ((c : Thread nD τ).loc main_arg3)) := by
  dsimp only [Gen.V, Gen.hostOps0]; after_results; rfl

set_option maxHeartbeats 4000000 in
/-- The launch finds the low part in the third window's array. -/
theorem V_lo (c : Dev nD) :
    (V m c main_v19 : FVec F S1024x1024 .bf16)
      = wLo (m ((c : Thread nD τ).loc main_arg1)) (m ((c : Thread nD τ).loc main_arg3)) := by
  dsimp only [Gen.V, Gen.hostOps0]; after_results; rfl

/-! ## At the extended reals -/

/-- A flat position, in range, is `col · 1024 + row` and needs no correction. -/
theorem flatWrapped_apply (e : IVec S2x65536 32) (he : InRange e) (j : Fin 65536) :
    flatWrapped e (ix1 j) = IntOp.addi (IntOp.muli (e (ix2 1 j)) 1024#32) (e (ix2 0 j)) := by
  have hflat : flatNo e (ix1 j) = IntOp.addi (IntOp.muli (e (ix2 1 j)) 1024#32) (e (ix2 0 j)) := by
    show IntOp.addi (IntOp.muli (colNo e (ix1 j)) (broadcastInDim S65536 ![] bcast_S_S65536 (constantI S_ 32 1024#32) (ix1 j)))
      (rowNo e (ix1 j)) = _
    rw [splat_apply]
    unfold colNo rowNo
    rw [row1_apply, row0_apply]
    rfl
  show Scalar.select (IntOp.cmpi .slt (flatNo e (ix1 j)) (broadcastInDim S65536 ![] bcast_S_S65536 (constantI S_ 32 0#32) (ix1 j)))
    (IntOp.addi (flatNo e (ix1 j)) (broadcastInDim S65536 ![] bcast_S_S65536 (constantI S_ 32 1048576#32) (ix1 j))) (flatNo e (ix1 j)) = _
  rw [splat_apply, splat_apply, hflat]
  have a0 := he (ix2 0 j)
  have a1 := he (ix2 1 j)
  have ef := flat_toNat _ _ a1 a0
  exact wrap_id _ _ (by rw [ef]; omega)

/-- The matrix the kernel builds is the dense transposed weight. -/
theorem wMat_apply (w : FVec Ideal S65536 .f32) (e : IVec S2x65536 32) (he : InRange e) (i : S1024x1024.Idx) :
    wMat (F := Ideal) w e i = wt w e i := by
  unfold wMat
  rw [asMatrix_apply shapeCasts_S1048576_S1024x1024 _ i
    (ix1 ⟨(i 0).val * 1024 + (i 1).val, by
      have h0 : (i 0).val < 1024 := (i 0).isLt
      have h1 : (i 1).val < 1024 := (i 1).isLt
      show _ < 1048576; omega⟩) rfl]
  unfold wFlat
  simp only [Host.scatterAdd, Ideal.hostScatterAdd_def]
  exact wt_of_flat scatter_S1048576_S65536x1_S65536_n_0_0_1_wf w e he _ _
    (fun k => splat_zero_apply bcast_S_S1048576 k)
    (fun j => (col_apply bcast_S65536_S65536x1_0 (flatWrapped e) j).trans (flatWrapped_apply e he j)) i _ rfl

/-- The high part is the dense transposed weight. -/
theorem wHi_apply (w : FVec Ideal S65536 .f32) (e : IVec S2x65536 32) (he : InRange e) (i : S1024x1024.Idx) :
    wHi (F := Ideal) w e i = wt w e i :=
  wMat_apply w e he i

/-- The low part vanishes. -/
theorem wLo_apply (w : FVec Ideal S65536 .f32) (e : IVec S2x65536 32) (he : InRange e) (hw : ∀ j, IsReal (w j))
    (i : S1024x1024.Idx) : wLo (F := Ideal) w e i = 0 := by
  show wMat (F := Ideal) w e i - wMat (F := Ideal) w e i = 0
  rw [wMat_apply w e he i]
  exact sub_self_of_isReal (wt_isReal w e hw i)

end Cert.KernelIdeal.Weights

end
-- ==== Proof.Payload.lean ====
import proofs.«428292_j70179765616942_3_alg».proof.Proof.Gen.KernelIdeal.Frame
import proofs.«428292_j70179765616942_3_alg».proof.Proof.Spec
import Idealize.ShloMosaic.Lib.ValueLayout
import Idealize.ShloMosaic.Lib.Pipeline.Value
import Idealize.ShloMosaic.PureOps.Ideal.Laws

/-!
# One block of the kernel's arithmetic, entry by entry

At one grid point the kernel holds a `1000 × 1024` block `x` of rows, the two `1024 × 1024` weight parts
`wh`, `wl` and the bias. It splits `x` into a reduced-precision part (on the extended reals: `x` itself) and the
remainder `x − x`, and adds three matrix products, each accumulated from zero:
`x · wh + x · wl + (x − x) · wh`, then the bias along the rows. Entry `(p, q)` of a product onto zero is the plain
sum `∑ₖ lhs[p, k] · rhs[k, q]`.
-/

noncomputable section

namespace Cert.KernelIdeal.Payload

open Cert.KernelIdeal Cert.KernelIdeal.Gen
open Idealize.ShloMosaic Idealize.ShloMosaic.ValueIdx
open Cert.Lib

/-! ## The product's operand indices -/

theorem lhs_axis0 (i : S1000x1024.Idx) (q : dot_S1000x1024_S1024x1024_S1000x1024_1_0_0_1_n_n.contr.Idx) :
    (dot_S1000x1024_S1024x1024_S1000x1024_1_0_0_1_n_n.lhsIdx i q 0).val = (i 0).val := by
  unfold DotDims.lhsIdx
  rw [dif_neg (show ¬(0 : Fin S1000x1024.rank) ∈ dot_S1000x1024_S1024x1024_S1000x1024_1_0_0_1_n_n.lhsBatch by decide), dif_pos (show (0 : Fin S1000x1024.rank) ∈ dot_S1000x1024_S1024x1024_S1000x1024_1_0_0_1_n_n.lhsNonContracting by decide)]
  rfl
theorem lhs_axis1 (i : S1000x1024.Idx) (q : dot_S1000x1024_S1024x1024_S1000x1024_1_0_0_1_n_n.contr.Idx) :
    (dot_S1000x1024_S1024x1024_S1000x1024_1_0_0_1_n_n.lhsIdx i q 1).val = (q ⟨0, by decide⟩).val :=
  dot_S1000x1024_S1024x1024_S1000x1024_1_0_0_1_n_n.lhsIdx_val_of_single rfl i q
theorem rhs_axis0 (i : S1000x1024.Idx) (q : dot_S1000x1024_S1024x1024_S1000x1024_1_0_0_1_n_n.contr.Idx) :
    (dot_S1000x1024_S1024x1024_S1000x1024_1_0_0_1_n_n.rhsIdx i q 0).val = (q ⟨0, by decide⟩).val :=
  dot_S1000x1024_S1024x1024_S1000x1024_1_0_0_1_n_n.rhsIdx_val_of_single rfl i q
theorem rhs_axis1 (i : S1000x1024.Idx) (q : dot_S1000x1024_S1024x1024_S1000x1024_1_0_0_1_n_n.contr.Idx) :
    (dot_S1000x1024_S1024x1024_S1000x1024_1_0_0_1_n_n.rhsIdx i q 1).val = (i 1).val := by
  unfold DotDims.rhsIdx
  rw [dif_neg (show ¬(1 : Fin S1024x1024.rank) ∈ dot_S1000x1024_S1024x1024_S1000x1024_1_0_0_1_n_n.rhsBatch by decide), dif_pos (show (1 : Fin S1024x1024.rank) ∈ dot_S1000x1024_S1024x1024_S1000x1024_1_0_0_1_n_n.rhsNonContracting by decide)]
  rfl

/-- One matrix product accumulated from zero, at entry `(p, q)`: `∑ₖ lhs[p, k] · rhs[k, q]`. -/
theorem pass_apply {φ₁ φ₂ : FTy} (lhs : FVec Ideal S1000x1024 φ₁) (rhs : FVec Ideal S1024x1024 φ₂) (p : Fin 1000) (q : Fin 1024) :
    matmul dot_S1000x1024_S1024x1024_S1000x1024_1_0_0_1_n_n none lhs rhs (constant S1000x1024 .f32 0x00000000#32) (ix2 p q)
      = ∑ k : Fin 1024, lhs (ix2 p k) * rhs (ix2 k q) := by
  simp only [matmul]
  rw [Ideal.matmul_constant_zero_apply, ← Equiv.sum_comp (ValueIdx.contrEquiv1 dot_S1000x1024_S1024x1024_S1000x1024_1_0_0_1_n_n 1024 rfl rfl).symm]
  refine Finset.sum_congr rfl fun k _ => ?_
  have hk := ValueIdx.contrEquiv1_symm_val dot_S1000x1024_S1024x1024_S1000x1024_1_0_0_1_n_n 1024 rfl rfl k
  have el : dot_S1000x1024_S1024x1024_S1000x1024_1_0_0_1_n_n.lhsIdx (ix2 p q) ((ValueIdx.contrEquiv1 dot_S1000x1024_S1024x1024_S1000x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1000x1024_S1024x1024_S1000x1024_1_0_0_1_n_n.rhsIdx (ix2 p q) ((ValueIdx.contrEquiv1 dot_S1000x1024_S1024x1024_S1000x1024_1_0_0_1_n_n 1024 rfl rfl).symm k) = ix2 k q := funext fun a => Fin.ext (by
    match a with
    | ⟨0, _⟩ => exact (rhs_axis0 _ _).trans hk
    | ⟨1, _⟩ => exact rhs_axis1 _ _)
  exact (congrArg (fun a => lhs a * rhs _) el).trans (congrArg (fun a => lhs _ * rhs a) er)

/-- The bias spread over the rows: entry `(p, q)` is `b[q]`. -/
theorem bias_apply {α : Type} (b : S1024.Idx → α) (p : Fin 1000) (q : Fin 1024) :
    broadcastTo S1000x1024 (shapeCast S1x1024 b shapeCasts_S1024_S1x1024) broadcasts_S1x1024_S1000x1024 (ix2 p q) = b (ix1 q) := by
  rw [broadcastTo_1b_ab_apply, shapeCast_a_1a_apply]

/-- The block's arithmetic at entry `(p, q)`, when the second weight block vanishes and the row block is
    real: the three products collapse to `∑ₖ x[p, k] · wh[k, q]`, then the bias. -/
theorem pay_apply (x : Vec Ideal S1000x1024 .f32) (wh wl wh' : Vec Ideal S1024x1024 .bf16) (b : Vec Ideal S1024 .f32)
    (hx : ∀ j, IsReal (x j)) (hwl : ∀ j, wl j = 0) (hh : wh' = wh) (p : Fin 1000) (q : Fin 1024) :
    k0_pay1 (F := Ideal) x wh wl wh' b (ix2 p q) = (∑ k : Fin 1024, x (ix2 p k) * wh (ix2 k q)) + b (ix1 q) := by
  subst hh
  unfold k0_pay1
  show ((matmul (F := Ideal) dot_S1000x1024_S1024x1024_S1000x1024_1_0_0_1_n_n none (truncf (F := Ideal) .bf16 x bitsLt_bf16_f32) (shapeCast S1024x1024 wh' shapeCasts_S1024x1024_S1024x1024) (constant (F := Ideal) S1000x1024 .f32 0x00000000#32) (ix2 p q)
        + matmul (F := Ideal) dot_S1000x1024_S1024x1024_S1000x1024_1_0_0_1_n_n none (truncf (F := Ideal) .bf16 x bitsLt_bf16_f32) (shapeCast S1024x1024 wl shapeCasts_S1024x1024_S1024x1024) (constant (F := Ideal) S1000x1024 .f32 0x00000000#32) (ix2 p q))
        + matmul (F := Ideal) dot_S1000x1024_S1024x1024_S1000x1024_1_0_0_1_n_n none (truncf (F := Ideal) .bf16 (subf (F := Ideal) x x) bitsLt_bf16_f32) (shapeCast S1024x1024 wh' shapeCasts_S1024x1024_S1024x1024) (constant (F := Ideal) S1000x1024 .f32 0x00000000#32) (ix2 p q))
      + broadcastTo S1000x1024 (shapeCast S1x1024 b shapeCasts_S1024_S1x1024) broadcasts_S1x1024_S1000x1024 (ix2 p q) = _
  rw [pass_apply, pass_apply, pass_apply, bias_apply, shapeCast_self, shapeCast_self]
  refine congrArg (· + b (ix1 q)) ?_
  have h := dot3 (fun k : Fin 1024 => x (ix2 p k)) (fun k => wh' (ix2 k q)) (fun k => wl (ix2 k q))
    (fun k => hx _) (fun k => hwl _)
  simp only [zero_add] at h
  exact h

end Cert.KernelIdeal.Payload

end
-- ==== Proof.KernelIsG.lean ====
import proofs.«428292_j70179765616942_3_alg».proof.Proof.Gen.KernelIdeal.Value
import proofs.«428292_j70179765616942_3_alg».proof.Proof.KernelWeights
import proofs.«428292_j70179765616942_3_alg».proof.Proof.Payload

/-!
# The kernel's result array is `G`

The launch walks `50` grid points; point `t` reads rows `1000·t … 1000·t + 999` of `x`, the whole of both weight
parts and of the bias, and writes rows `1000·t … 1000·t + 999` of the result. With the high weight part equal to the
dense transposed weight, the low part zero and `x` real, what point `t` writes is block `t` of `G`; the `50`
blocks tile the `50000` rows, so the array ends at `G`.
-/

noncomputable section

namespace Cert.KernelIdeal.IsG

open Cert.KernelIdeal Cert.KernelIdeal.Gen Cert.KernelIdeal.Value Cert.KernelIdeal.Weights Cert.KernelIdeal.Payload
open Idealize.ShloMosaic Idealize.ShloMosaic.TcCoe Idealize.SL.Sem Idealize.ShloMosaic.ValueIdx
open Idealize.ShloMosaic.Pipeline (Dat)
open Cert.Expander Cert.Lib

variable (m : (ℓ : Loc nD τ sig) → Buf (Elt Ideal) ℓ) (ρ : Dev nD → PrngReg)

/-- The arguments as arrays of extended reals and words. -/
abbrev argX (c : Dev nD) : FVec Ideal S50000x1024 .f32 := m ((c : Thread nD τ).loc main_arg0)
abbrev argW (c : Dev nD) : FVec Ideal S65536 .f32 := m ((c : Thread nD τ).loc main_arg1)
abbrev argB (c : Dev nD) : FVec Ideal S1024 .f32 := m ((c : Thread nD τ).loc main_arg2)
abbrev argE (c : Dev nD) : IVec S2x65536 32 := m ((c : Thread nD τ).loc main_arg3)

theorem hz : (![0, 0] : Fin 2 → Nat) = fun _ => 0 := funext fun a => by fin_cases a <;> rfl
theorem hz1 : (![0] : Fin 1 → Nat) = fun _ => 0 := funext fun a => by fin_cases a; rfl

/-- The printed index maps over the grid: the row windows sit at block `t`, the others at block `0`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 50 :=
  (by decide +kernel : ∀ t : Fin grid0.N, _)

/-- The input blocks at point `t`, by their literal types. -/
abbrev xblk (c : Dev nD) (t : Fin cfg0.N) : Vec Ideal S1000x1024 .f32 := iblk m c 0 t
abbrev hblk (c : Dev nD) (t : Fin cfg0.N) : Vec Ideal S1024x1024 .bf16 := iblk m c 1 t
abbrev lblk (c : Dev nD) (t : Fin cfg0.N) : Vec Ideal S1024x1024 .bf16 := iblk m c 2 t
abbrev bblk (c : Dev nD) (t : Fin cfg0.N) : Vec Ideal S1024 .f32 := iblk m c 3 t

/-- Entry `(p, k)` of the row block at point `t` is `x[1000·t + p, k]`. -/
theorem xblk_apply (c : Dev nD) (t : Fin cfg0.N) (p : Fin 1000) (k : Fin 1024) (i : S50000x1024.Idx)
    (hi0 : (i 0).val = t.val * 1000 + p.val) (hi1 : (i 1).val = k.val) :
    xblk m c t (ix2 p k) = argX m c i := by
  show V m c main_arg0 (((cfg0.win 0).blk t).view.emb (ix2 p k)) = _
  rw [V_main_arg0]
  refine congrArg (argX m c) (funext fun a => Fin.ext ?_)
  obtain ⟨e0, e1, -⟩ := idx_facts t
  match a with
  | ⟨0, _⟩ => show win0_0.index t (0 : Fin 2) * 1000 + 1 * p.val = (i 0).val; omega
  | ⟨1, _⟩ => show win0_0.index t (1 : Fin 2) * 1024 + 1 * k.val = (i 1).val; omega

/-- The high weight block at any point is the whole high part. -/
theorem hblk_apply (c : Dev nD) (t : Fin cfg0.N) (j : S1024x1024.Idx) :
    hblk m c t j = wHi (argW m c) (argE m c) j := by
  show V m c main_v16 (((cfg0.win 1).blk t).view.emb j) = _
  rw [V_hi]
  refine congrArg (wHi (argW m c) (argE m c)) (funext fun a => Fin.ext ?_)
  obtain ⟨-, -, e0, e1, -⟩ := idx_facts t
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The low weight block at any point is the whole low part. -/
theorem lblk_apply (c : Dev nD) (t : Fin cfg0.N) (j : S1024x1024.Idx) :
    lblk m c t j = wLo (argW m c) (argE m c) j := by
  show V m c main_v19 (((cfg0.win 2).blk t).view.emb j) = _
  rw [V_lo]
  refine congrArg (wLo (argW m c) (argE m c)) (funext fun a => Fin.ext ?_)
  obtain ⟨-, -, -, -, e0, e1, -⟩ := idx_facts t
  match a with
  | ⟨0, _⟩ => show win0_2.index t (0 : Fin 2) * 1024 + 1 * (j 0).val = (j 0).val; omega
  | ⟨1, _⟩ => show win0_2.index t (1 : Fin 2) * 1024 + 1 * (j 1).val = (j 1).val; omega

/-- The bias block at any point is the whole bias. -/
theorem bblk_apply (c : Dev nD) (t : Fin cfg0.N) (j : S1024.Idx) :
    bblk m c t j = argB m c j := by
  show V m c main_arg2 (((cfg0.win 3).blk t).view.emb j) = _
  rw [V_main_arg2]
  refine congrArg (argB m c) (funext fun a => Fin.ext ?_)
  obtain ⟨-, -, -, -, -, -, e0, -⟩ := idx_facts t
  match a with
  | ⟨0, _⟩ => show win0_3.index t (0 : Fin 1) * 1024 + 1 * (j 0).val = (j 0).val; omega

/-- What the three facts about the arguments are, on core `c`. -/
structure Good (c : Dev nD) : Prop where
  x_real : ∀ i, IsReal (argX m c i)
  w_real : ∀ j, IsReal (argW m c j)
  inRange : InRange (argE m c)

/-- WHAT POINT `t` WRITES BACK is block `t` of `G` of the arguments. -/
theorem flushed_eq (c : Dev nD) (hg : Good m c) (t : Fin cfg0.N) :
    (dats m 0 c).flushed 4 t
      = ((cfg0.win 4).blk t).view.read (Elt Ideal) (G (argX m c) (argW m c) (argB m c) (argE m c)) := by
  rw [Value.flushed4]
  unfold out0_4
  rw [View.canon_unit_zero hz]
  simp only [View.ld_unit_zero (S := S1000x1024) hz, View.ld_unit_zero (S := S1024x1024) hz, View.ld_unit_zero (S := S1024) hz1]
  funext j
  obtain ⟨p, q, rfl⟩ : ∃ (p : Fin 1000) (q : Fin 1024), j = ix2 p q := ⟨j 0, j 1, eq_ix2 j⟩
  obtain ⟨-, -, -, -, -, -, -, e0, e1, ht⟩ := idx_facts t
  have hrow : t.val * 1000 + p.val < 50000 := by have := p.isLt; omega
  show k0_pay1 (F := Ideal) (xblk m c t) (hblk m c t) (lblk m c t) (hblk m c t) (bblk m c t) (ix2 p q)
    = G (argX m c) (argW m c) (argB m c) (argE m c) (((cfg0.win 4).blk t).view.emb (ix2 p q))
  have eemb : ((cfg0.win 4).blk t).view.emb (ix2 p q) = ix2 (⟨t.val * 1000 + p.val, hrow⟩ : Fin 50000) q := by
    funext a; apply Fin.ext
    match a with
    | ⟨0, _⟩ => show win0_4.index t (0 : Fin 2) * 1000 + 1 * p.val = t.val * 1000 + p.val; omega
    | ⟨1, _⟩ => show win0_4.index t (1 : Fin 2) * 1024 + 1 * q.val = q.val; omega
  rw [eemb]
  refine (pay_apply (xblk m c t) (hblk m c t) (lblk m c t) (hblk m c t) (bblk m c t)
    (fun j => ?_) (fun j => ?_) rfl p q).trans ?_
  · obtain ⟨a, b, rfl⟩ : ∃ (a : Fin 1000) (b : Fin 1024), j = ix2 a b := ⟨j 0, j 1, eq_ix2 j⟩
    have hr : t.val * 1000 + a.val < 50000 := by have := a.isLt; omega
    rw [xblk_apply m c t a b (ix2 (⟨t.val * 1000 + a.val, hr⟩ : Fin 50000) b) rfl rfl]
    exact hg.x_real _
  · rw [lblk_apply]
    exact wLo_apply _ _ hg.inRange hg.w_real j
  · unfold G
    show _ = (∑ k : Fin 1024, argX m c (ix2 (⟨t.val * 1000 + p.val, hrow⟩ : Fin 50000) k) * wt (argW m c) (argE m c) (ix2 k q)) + argB m c (ix1 q)
    rw [bblk_apply]
    refine congrArg (· + argB m c (ix1 q)) (Finset.sum_congr rfl fun k _ => ?_)
    rw [xblk_apply m c t p k (ix2 (⟨t.val * 1000 + p.val, hrow⟩ : Fin 50000) k) rfl rfl, hblk_apply,
      wHi_apply _ _ hg.inRange]

/-- An index of the result is in point `t`'s block iff each coordinate is in the block's range on its axis. -/
theorem mem_blk (t : Fin cfg0.N) (i : S50000x1024.Idx) :
    i ∈ ((cfg0.win 4).blk t).view.set ↔ ∀ a : Fin 2, win0_4.index t a * S1000x1024.size a ≤ (i a).val ∧ (i a).val < win0_4.index t a * S1000x1024.size a + S1000x1024.size a := by
  show i ∈ ((View.whole main_v20).slice (win0_4.rect t)).set ↔ _
  rw [View.set_slice_whole, Rect.mem_set_unit]
  exact Iff.rfl

/-- Every index of the result is in some point's block: row `r` in the block of point `r / 1000`. -/
theorem cover (i : S50000x1024.Idx) :
    ∃ t : Fin cfg0.N, (cfg0.win 4).flush t = true ∧ i ∈ ((cfg0.win 4).blk t).view.set := by
  have hi0 : (i 0).val < 50000 := (i 0).isLt
  have hi1 : (i 1).val < 1024 := (i 1).isLt
  have hN : (i 0).val / 1000 < cfg0.N := by rw [show cfg0.N = 50 from N_0]; omega
  refine ⟨⟨(i 0).val / 1000, hN⟩, flush0_4 _, ?_⟩
  rw [mem_blk]
  obtain ⟨-, -, -, -, -, -, -, e0, e1, -⟩ := idx_facts ⟨(i 0).val / 1000, hN⟩
  intro a
  match a with
  | ⟨0, _⟩ =>
    show win0_4.index ⟨(i 0).val / 1000, hN⟩ (0 : Fin 2) * 1000 ≤ (i 0).val ∧ (i 0).val < win0_4.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win0_4.index ⟨(i 0).val / 1000, hN⟩ (1 : Fin 2) * 1024 ≤ (i 1).val ∧ (i 1).val < win0_4.index ⟨(i 0).val / 1000, hN⟩ (1 : Fin 2) * 1024 + 1024
    rw [e1]; omega

/-- THE ARRAY after the run is `G` of the arguments. -/
theorem final (c : Dev nD) (hg : Good m c) :
    (dats m 0 c).arrAt 4 cfg0.N = G (argX m c) (argW m c) (argB m c) (argE m c) :=
  (dats m 0 c).arrAt_eq_of_cover 4 (G (argX m c) (argW m c) (argB m c) (argE m c)) (fun t _ => flushed_eq m c hg t) cover

/-- The kernel's run, with the result array at `G` and the arguments unchanged. -/
theorem run (hg : ∀ c, Good m c) : θ_run defs (onTc (τ := τ) (main (F := Ideal))) ⟨m, fun _ => 0, ρ⟩ fun r => ∀ c : Dev nD,
      r.2.mem ((c : Thread nD τ).loc main_v20) = G (argX m c) (argW m c) (argB m c) (argE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hg c)), (h c).2⟩) (Value.run_blocks m ρ)

end Cert.KernelIdeal.IsG

end
-- ==== Proof.RefIsG.lean ====
import proofs.«428292_j70179765616942_3_alg».proof.Proof.Gen.ReferenceIdeal.Read
import proofs.«428292_j70179765616942_3_alg».proof.Proof.HostIdx

/-!
# The reference computes `G`

The reference scatters the values into a `1024 × 1024` zero matrix at the pairs `(row, col)` (each number first
corrected by "negative means from the end", which does nothing to a number in range), transposes, multiplies
`x` by the result and adds the bias along the rows. Entry `(c, r)` of the transposed scatter is the dense
transposed weight `wt[c, r]`, so the result is `G` entry by entry.
-/

noncomputable section

namespace Cert.ReferenceIdeal.IsG

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.Expander Cert.Lib

/-- The corrected row number of triple `j` is `e[0, j]`. -/
theorem rows_apply (e : IVec S2x65536 32) (he : InRange e) (j : Fin 65536) :
    val_main_v9 (F := Ideal) e (ix1 j) = e (ix2 0 j) := by
  have h1 : val_main_v1 (F := Ideal) e (ix1 j) = e (ix2 0 j) := by
    unfold val_main_v1 val_main_v0; exact row0_apply _ _ e j
  have h5 : val_main_v5 (F := Ideal) (ix1 j) = 0#32 := by
    unfold val_main_v5 val_main_c; rw [splat_apply]; rfl
  show Scalar.select (IntOp.cmpi .slt (val_main_v1 (F := Ideal) e (ix1 j)) (val_main_v5 (F := Ideal) (ix1 j)))
    (IntOp.addi (val_main_v1 (F := Ideal) e (ix1 j)) (val_main_v7 (F := Ideal) (ix1 j))) (val_main_v1 (F := Ideal) e (ix1 j)) = _
  rw [h1, h5]
  have a0 := he (ix2 0 j)
  exact wrap_id _ _ (by omega)

/-- The corrected column number of triple `j` is `e[1, j]`. -/
theorem cols_apply (e : IVec S2x65536 32) (he : InRange e) (j : Fin 65536) :
    val_main_v14 (F := Ideal) e (ix1 j) = e (ix2 1 j) := by
  have h1 : val_main_v3 (F := Ideal) e (ix1 j) = e (ix2 1 j) := by
    unfold val_main_v3 val_main_v2; exact row1_apply _ _ e j
  have h5 : val_main_v10 (F := Ideal) (ix1 j) = 0#32 := by
    unfold val_main_v10 val_main_c_1; rw [splat_apply]; rfl
  show Scalar.select (IntOp.cmpi .slt (val_main_v3 (F := Ideal) e (ix1 j)) (val_main_v10 (F := Ideal) (ix1 j)))
    (IntOp.addi (val_main_v3 (F := Ideal) e (ix1 j)) (val_main_v12 (F := Ideal) (ix1 j))) (val_main_v3 (F := Ideal) e (ix1 j)) = _
  rw [h1, h5]
  have a1 := he (ix2 1 j)
  exact wrap_id _ _ (by omega)

/-- The index pair of triple `j`: first component its row number, -/
theorem pair0_apply (e : IVec S2x65536 32) (he : InRange e) (j : Fin 65536) :
    val_main_v17 (F := Ideal) e (ix2 j 0) = e (ix2 0 j) := by
  unfold val_main_v17
  rw [pair_left]
  unfold val_main_v15
  rw [col_apply]
  exact rows_apply e he j

/-- second component its column number. -/
theorem pair1_apply (e : IVec S2x65536 32) (he : InRange e) (j : Fin 65536) :
    val_main_v17 (F := Ideal) e (ix2 j 1) = e (ix2 1 j) := by
  unfold val_main_v17
  rw [pair_right]
  unfold val_main_v16
  rw [col_apply]
  exact cols_apply e he j

/-- The transposed scatter is the dense transposed weight. -/
theorem wT_apply (w : FVec Ideal S65536 .f32) (e : IVec S2x65536 32) (he : InRange e) (i : S1024x1024.Idx) :
    val_main_v19 (F := Ideal) w e i = wt w e i := by
  rw [val_main_v19_apply]
  have ei : idx_main_v19 i = ix2 (i 1) (i 0) := funext fun a => match a with
    | ⟨0, _⟩ => rfl
    | ⟨1, _⟩ => rfl
  rw [ei]
  unfold val_main_v18
  simp only [Host.scatterAdd, Ideal.hostScatterAdd_def]
  exact wt_of_pair scatter_S1024x1024_S65536x2_S65536_n_01_01_1_wf w e he _ _
    (fun k => by unfold val_main_v4 val_main_cst; exact splat_zero_apply bcast_S_S1024x1024 k)
    (pair0_apply e he) (pair1_apply e he) i

/-- The reference's result is `G`. -/
theorem result_eq (x : FVec Ideal S50000x1024 .f32) (w : FVec Ideal S65536 .f32) (b : FVec Ideal S1024 .f32)
    (e : IVec S2x65536 32) (he : InRange e) :
    val_main_v23 (F := Ideal) x w b e = G x w b e := by
  funext i
  have el : ∀ k : Fin 1024, lidx_main_v20 i k = ix2 (i 0) k := fun k => funext fun a => match a with
    | ⟨0, _⟩ => rfl
    | ⟨1, _⟩ => rfl
  have er : ∀ k : Fin 1024, ridx_main_v20 i k = ix2 k (i 1) := fun k => funext fun a => match a with
    | ⟨0, _⟩ => rfl
    | ⟨1, _⟩ => rfl
  have eb : idx_main_v21 (idx_main_v22 i) = ix1 (i 1) := funext fun a => match a with
    | ⟨0, _⟩ => rfl
  rw [val_main_v23_apply, val_main_v20_apply, val_main_v22_apply, val_main_v21_apply, eb]
  unfold G
  show (∑ k : Fin 1024, x (lidx_main_v20 i k) * val_main_v19 (F := Ideal) w e (ridx_main_v20 i k)) + b (ix1 (i 1)) = _
  refine congrArg (· + b (ix1 (i 1))) (Finset.sum_congr rfl fun k _ => ?_)
  rw [el, er]
  exact congrArg (fun z => x (ix2 (i 0) k) * z) (wT_apply w e he (ix2 k (i 1)))

end Cert.ReferenceIdeal.IsG

end
-- ==== Proof.PreDecode.lean ====
import proofs.«428292_j70179765616942_3_alg».proof.Proof.Gen.Pre_finite_inputs
import proofs.«428292_j70179765616942_3_alg».proof.Proof.HostIdx
import Idealize.ShloMosaic.Lib.ReduceAll
import Idealize.ShloMosaic.Lib.Affine

/-!
# What the precondition says

The precondition is a conjunction of five "for all elements" tests: `|x| < +∞`, `|w| < +∞`, `|bias| < +∞` on
the float arguments and `e ≥ 0`, `e < 1024` on the row and column numbers. Used here: every entry of `x` and
of `w` is a real number, and every row and column number lies in `[0, 1024)`.
-/

open Idealize.ShloMosaic Idealize.ShloMosaic.ValueIdx Idealize.ShloMosaic.StableHlo
open Cert.Lib Cert.Expander

namespace Cert.Pre_finite_inputs.Decode

open Cert.Pre_finite_inputs

instance : Subsingleton S_.Idx := ⟨fun _ _ => funext fun d => d.elim0⟩

/-- The `f32` pattern of `+∞` denotes `+∞`. -/
theorem ofBits_inf : Ideal.ofBits .f32 0x7F800000#32 = (⊤ : EReal) := by simp [Ideal.ofBits, Ideal.ieee]

/-- An extended real whose absolute value tests below `+∞` is real. -/
theorem isReal_of_bit (v c : EReal) (hc : c = ⊤) (h : Ideal.cmp .olt (Max.max v (-v)) c = 1#1) : IsReal v := by
  subst hc
  unfold Ideal.cmp at h
  have h' : Max.max v (-v) < ⊤ := by simpa [Predicate.ofBool_eq_one_iff] using h
  exact isReal_of_abs_lt_top h'

theorem decode (x : FVec Ideal S50000x1024 .f32) (w : FVec Ideal S65536 .f32) (b : FVec Ideal S1024 .f32)
    (e : IVec S2x65536 32) (h : fn (F := Ideal) x w b e = fun _ => 1#1) :
    (∀ i, IsReal (x i)) ∧ (∀ j, IsReal (w j)) ∧ InRange e := by
  have h0 := congrFun h ix0
  dsimp only [fn, fn_part1] at h0
  obtain ⟨h1, hlt⟩ := IntOp.andi_eq_one.mp h0
  obtain ⟨h2, hge⟩ := IntOp.andi_eq_one.mp h1
  obtain ⟨h3, _⟩ := IntOp.andi_eq_one.mp h2
  obtain ⟨hx, hw⟩ := IntOp.andi_eq_one.mp h3
  refine ⟨fun i => ?_, fun j => ?_, fun p => ?_⟩
  · have hb := Host.reduce_andi_all _ _ _ _ _ hx i
    exact isReal_of_bit (x i) _ ((splat_apply _ _ i).trans ofBits_inf) hb
  · have hb := Host.reduce_andi_all _ _ _ _ _ hw j
    exact isReal_of_bit (w j) _ ((splat_apply _ _ j).trans ofBits_inf) hb
  · have g0 := Host.reduce_andi_all _ _ _ _ _ hge p
    have g1 := Host.reduce_andi_all _ _ _ _ _ hlt p
    change IntOp.cmpi .sge (e p) (broadcastInDim S2x65536 ![] _ (constantI S_ 32 0#32) p) = 1#1 at g0
    change IntOp.cmpi .slt (e p) (broadcastInDim S2x65536 ![] _ (constantI S_ 32 1024#32) p) = 1#1 at g1
    rw [splat_apply] at g0 g1
    exact toNat_lt_of_cmp (e p) g0 g1

end Cert.Pre_finite_inputs.Decode
-- ==== Proof.lean ====
/-
  A linear layer with a sparsely given weight: `y = x · Wᵀ + bias` over `x : f32[50000, 1024]`, where the
  `1024 × 1024` weight `W` is the sum of `65536` triples (row, col, value), duplicates accumulating.

  The reference scatters the values into a zero matrix at the pairs (row, col), transposes, multiplies and adds the
  bias. The kernel scatters them into a flat zero array at the positions `col · 1024 + row`, reads that array as the
  matrix `Wᵀ`, splits `Wᵀ` and each block of `x` into a reduced-precision part and a remainder, and adds three matrix
  products `x_hi · W_hi + x_hi · W_lo + x_lo · W_hi` and the bias, `1000` rows at a time over `50` grid points.

  On the extended reals a change of precision is the identity, so `x_hi = x`, `W_hi = Wᵀ`, `x_lo = x − x` and
  `W_lo = Wᵀ − Wᵀ`. The remainders vanish where the values are real: `x` is real by the precondition, and every entry
  of `Wᵀ` is a finite sum of real values. (At an infinite entry `x − x` would be `−∞`, so finiteness is used.) The
  two scatters build the same matrix when every row and column number lies in `[0, 1024)`: the position
  `col · 1024 + row` then determines `(col, row)`, nothing wraps in 32-bit arithmetic, and neither program's
  "negative index counts from the end" correction applies. Outside that range they differ (an out-of-range pair is
  dropped by the matrix scatter while its flat position may land inside the flat array), so the range is part of the
  precondition: it is where the reference itself indexes inside its matrix.

  Both results are then `G[n, o] = ∑ₖ x[n, k] · wt[k, o] + bias[o]` with
  `wt[c, r] = ∑ {j | col j = c ∧ row j = r} value j`.
-/
import proofs.«428292_j70179765616942_3_alg».proof.Defs
import proofs.«428292_j70179765616942_3_alg».proof.Proof.Gen.Kernel
import proofs.«428292_j70179765616942_3_alg».proof.Proof.Gen.Kernel.Skeleton
import proofs.«428292_j70179765616942_3_alg».proof.Proof.Gen.Kernel.Launch
import proofs.«428292_j70179765616942_3_alg».proof.Proof.Gen.Kernel.Points
import proofs.«428292_j70179765616942_3_alg».proof.Proof.Gen.Kernel.Frame
import proofs.«428292_j70179765616942_3_alg».proof.Proof.Gen.KernelIdeal
import proofs.«428292_j70179765616942_3_alg».proof.Proof.Gen.KernelIdeal.Skeleton
import proofs.«428292_j70179765616942_3_alg».proof.Proof.Gen.KernelIdeal.Launch
import proofs.«428292_j70179765616942_3_alg».proof.Proof.Gen.KernelIdeal.Points
import proofs.«428292_j70179765616942_3_alg».proof.Proof.Gen.KernelIdeal.Frame
import proofs.«428292_j70179765616942_3_alg».proof.Proof.Gen.ReferenceIdeal
import proofs.«428292_j70179765616942_3_alg».proof.Proof.Gen.KernelIdeal.Value
import proofs.«428292_j70179765616942_3_alg».proof.Proof.Gen.ReferenceIdeal.Run
import proofs.«428292_j70179765616942_3_alg».proof.Proof.Gen.ReferenceIdeal.Read
import proofs.«428292_j70179765616942_3_alg».proof.Proof.Gen.Pre_finite_inputs
import proofs.«428292_j70179765616942_3_alg».proof.Proof.KernelIsG
import proofs.«428292_j70179765616942_3_alg».proof.Proof.RefIsG
import proofs.«428292_j70179765616942_3_alg».proof.Proof.PreDecode
import Idealize.ShloMosaic.Adequacy
import Idealize.ShloMosaic.Init

noncomputable section

namespace Cert.Proof

open Idealize.ShloMosaic Idealize.ShloMosaic.TcCoe Idealize.SL.Sem
open Cert.Expander

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one idealization applied: widening back a narrowed block of `x` is, on the extended reals, the block. -/
theorem preserves : Cert.preserves_Kernel_KernelIdeal := IdealRules.truncf_extf.statement _ .f32 .bf16

/-- Under the precondition the arguments on each core are real where needed and the indices in range. -/
theorem good (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.IsG.Good m c := by
  obtain ⟨hx, hw, he⟩ := Cert.Pre_finite_inputs.Decode.decode _ _ _ _ (hpre c)
  exact ⟨hx, hw, he⟩

/-- Both idealized programs end with `G` of the arguments in their result arrays. -/
theorem algebraic : Cert.algebraic_KernelIdeal_ReferenceIdeal := by
  intro m ρ m' ρ' hpre hagree
  have hg := good m hpre
  refine ⟨fun c => G (Cert.KernelIdeal.IsG.argX m c) (Cert.KernelIdeal.IsG.argW m c) (Cert.KernelIdeal.IsG.argB m c)
    (Cert.KernelIdeal.IsG.argE m c), Cert.KernelIdeal.IsG.run m ρ hg, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  exact Cert.ReferenceIdeal.IsG.result_eq _ _ _ _ (hg c).inRange

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
